-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4x1024 : Shape := ⟨3, ![8192, 4, 1024]⟩
abbrev S4096x1024 : Shape := ⟨2, ![4096, 1024]⟩
abbrev S4096 : Shape := ⟨1, ![4096]⟩
abbrev S_ : Shape := ⟨0, ![]⟩

class Facts : Prop where
  bcast_S_S8192x4x1024 : S_.BroadcastsInDim S8192x4x1024 (![] : Fin 0 → Fin S8192x4x1024.rank)
  reducesTo_S8192x4x1024_S_d0_1_2 : S8192x4x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4x1024 .f32) (main_arg1 : FVec F S4096x1024 .f32) (main_arg2 : FVec F S4096 .f32) : IVec S_ 1 :=
  let main_v0 : FVec F S8192x4x1024 .f32 := Host.absf main_arg0
  let main_cst : FVec F S_ .f32 := constant S_ .f32 0x7F800000#32
  let main_v1 : FVec F S8192x4x1024 .f32 := broadcastInDim S8192x4x1024 ![] bcast_S_S8192x4x1024 main_cst
  let main_v2 : IVec S8192x4x1024 1 := cmpf .olt main_v0 main_v1
  let main_c : IVec S_ 1 := constantI S_ 1 1#1
  let main_v3 : IVec S_ 1 := (fun x v => Host.reduce IntOp.andi x v reducesTo_S8192x4x1024_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4x1024 : Shape := ⟨3, ![8192, 4, 1024]⟩
abbrev S4096x1024 : Shape := ⟨2, ![4096, 1024]⟩
abbrev S4096 : Shape := ⟨1, ![4096]⟩
abbrev S32768x1024 : Shape := ⟨2, ![32768, 1024]⟩
abbrev S1x4096 : Shape := ⟨2, ![1, 4096]⟩
abbrev S32768x4096 : Shape := ⟨2, ![32768, 4096]⟩
abbrev S1024x1024 : Shape := ⟨2, ![1024, 1024]⟩
abbrev S1x1024 : Shape := ⟨2, ![1, 1024]⟩
abbrev S8192x4x4096 : Shape := ⟨3, ![8192, 4, 4096]⟩

abbrev nBuf : Space → Nat
  | .hbm => 7
  | .vmem => 8
  | .smem => 0
  | _ => 0

abbrev bufTy : (tb : Table) → Fin (tcTables nBuf tb) → BufTy
  | .hbm, ⟨0, _⟩ => ⟨S8192x4x1024, .f32⟩
  | .hbm, ⟨1, _⟩ => ⟨S4096x1024, .f32⟩
  | .hbm, ⟨2, _⟩ => ⟨S4096, .f32⟩
  | .hbm, ⟨3, _⟩ => ⟨S32768x1024, .f32⟩
  | .hbm, ⟨4, _⟩ => ⟨S1x4096, .f32⟩
  | .hbm, ⟨5, _⟩ => ⟨S32768x4096, .f32⟩
  | .hbm, ⟨6, _⟩ => ⟨S8192x4x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S8192x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S8192x4x1024_S32768x1024 : S8192x4x1024.ShapeCasts S32768x1024
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S32768x4096_S8192x4x4096 : S32768x4096.ShapeCasts S8192x4x4096
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .f32 = 32 ∨ (Rect.block (s := S4096x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S32768x4096.size a
  hwx0_3 : ∀ i : grid0.Coords, EltTy.bits .f32 = 32 ∨ (Rect.block (s := S32768x4096) S1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4x1024 : Shape := ⟨3, ![8192, 4, 1024]⟩
abbrev S4096x1024 : Shape := ⟨2, ![4096, 1024]⟩
abbrev S4096 : Shape := ⟨1, ![4096]⟩
abbrev S8192x4x4096 : Shape := ⟨3, ![8192, 4, 4096]⟩
abbrev S1x1x4096 : Shape := ⟨3, ![1, 1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4x1024, .f32⟩
  | .hbm, ⟨1, _⟩ => ⟨S4096x1024, .f32⟩
  | .hbm, ⟨2, _⟩ => ⟨S4096, .f32⟩
  | .hbm, ⟨3, _⟩ => ⟨S8192x4x4096, .f32⟩
  | .hbm, ⟨4, _⟩ => ⟨S1x1x4096, .f32⟩
  | .hbm, ⟨5, _⟩ => ⟨S8192x4x4096, .f32⟩
  | .hbm, ⟨6, _⟩ => ⟨S8192x4x4096, .f32⟩
  | _, _ => ⟨S8192x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S8192x4x4096_0_1_2 : S1x1x4096.BroadcastsInDim S8192x4x4096 (![0, 1, 2] : Fin 3 → Fin S8192x4x4096.rank)
  dot_S8192x4x1024_S4096x1024_S8192x4x4096_2_1_01_0_n_n_wf : DotDims.WF S8192x4x1024 S4096x1024 S8192x4x4096 [2] [1] [0, 1] [0] [] []

variable [Facts₀]

def dot_S8192x4x1024_S4096x1024_S8192x4x4096_2_1_01_0_n_n : DotDims S8192x4x1024 S4096x1024 S8192x4x4096 where
  lhsContracting := [2]
  rhsContracting := [1]
  lhsNonContracting := [0, 1]
  rhsNonContracting := [0]
  lhsBatch := []
  rhsBatch := []
  wf := dot_S8192x4x1024_S4096x1024_S8192x4x4096_2_1_01_0_n_n_wf

class Facts : Prop extends Facts₀ where

variable [Facts]
-- ==== Proof.Body.lean ====
/-
  The kernel body's one store, read at an index of the 1024 × 1024 output block, over the extended reals.
  The body loads a block `a` of rows of the flattened input (1024 rows, all 1024 features), a block `w` of rows of
  the weight (1024 output features, all 1024 input features) and one row `b` of 1024 bias entries, and stores
  `a · wᵀ + b`: entry (p, q) is the sum over the feature index k of a[p, k] · w[q, k], plus b[0, q]. The change
  of float format in front of the product is the identity on the extended reals, and the product into a zero
  accumulator is the plain sum.
-/
import proofs.«127856_j44856638439896_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-- The product's left operand is read at the output's row: (p, q), k ↦ row p. -/
theorem lhs_row (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- and at the contracted feature: (p, q), k ↦ column k. -/
theorem lhs_col (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
/-- The right operand is read at the output's COLUMN as its row (the product is against the transpose), -/
theorem rhs_row (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- and at the contracted feature. -/
theorem rhs_col (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The product of two blocks against the transpose, into the zero accumulator, at (p, q): Σₖ a[p, k] · w[q, k]. -/
theorem matmul_at (a w : FVec Ideal S1024x1024 .bf16) (p q : Fin 1024) :
    matmul dot_S1024x1024_S1024x1024_S1024x1024_1_1_0_0_n_n none a w (constant (F := Ideal) S1024x1024 .f32 0x00000000#32) (ix2 p q)
      = ∑ k : Fin 1024, a (ix2 p k) * w (ix2 q k) := by
  refine (Ideal.matmul_constant_zero_apply dot_S1024x1024_S1024x1024_S1024x1024_1_1_0_0_n_n none a w (ix2 p q)).trans ?_
  rw [← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 p q) ((ValueIdx.contrEquiv1 dot_S1024x1024_S1024x1024_S1024x1024_1_1_0_0_n_n 1024 rfl rfl).symm k) = ix2 p k := funext fun ax => Fin.ext (by
    match ax with
    | ⟨0, _⟩ => exact lhs_row _ _
    | ⟨1, _⟩ => exact (lhs_col _ _).trans hk)
  have er : dot_S1024x1024_S1024x1024_S1024x1024_1_1_0_0_n_n.rhsIdx (ix2 p q) ((ValueIdx.contrEquiv1 dot_S1024x1024_S1024x1024_S1024x1024_1_1_0_0_n_n 1024 rfl rfl).symm k) = ix2 q k := funext fun ax => Fin.ext (by
    match ax with
    | ⟨0, _⟩ => exact rhs_row _ _
    | ⟨1, _⟩ => exact (rhs_col _ _).trans hk)
  rw [el, er]

/-- THE STORED VALUE at (p, q) of the output block: Σₖ a[p, k] · w[q, k] + b[0, q]. -/
theorem pay_at (a w : Vec Ideal S1024x1024 .f32) (b : Vec Ideal S1x1024 .f32) (p q : Fin 1024) :
    k0_pay1 (F := Ideal) a w b (ix2 p q) = (∑ k : Fin 1024, a (ix2 p k) * w (ix2 q k)) + b (ix2 (0 : Fin 1) q) := by
  unfold k0_pay1
  refine (addf_apply _ _ (ix2 p q)).trans ?_
  refine congrArg₂ (· + ·) ?_ ?_
  · refine (matmul_at _ _ p q).trans ?_
    rw [shapeCast_self]
    rfl
  · refine (broadcastTo_1b_ab_apply _ _ p q).trans ?_
    rw [shapeCast_self]

end Cert.KernelIdeal.Body

end
-- ==== Proof.Linear.lean ====
/-
  The linear layer as ONE function of its three arrays, over the extended reals, in the two layouts the programs use.

  `full x w b` is the layer on a [sequence, batch, feature] input: entry (s, n, o) is Σₖ x[s, n, k] · w[o, k] + b[o].
  `flat X w B` is the same layer on the input with its two leading axes merged into 32768 rows and the bias as one
  row: entry (r, o) is Σₖ X[r, k] · w[o, k] + B[0, o].
  Row-major order sends (s, n) to row 4·s + n, so reshaping the input and the bias, applying `flat`, and reshaping
  the result back is `full`: the same sum, term by term, plus the same bias entry (`reshape_flat`). No law of the
  extended reals is used beyond reading both sides at an index.
-/
import Idealize.ShloMosaic.Lib.Pipeline.Value
import Idealize.ShloMosaic.Lib.ValueIdx
import Idealize.ShloMosaic.PureOps.Ideal

noncomputable section

namespace Cert.Linear

open Idealize.ShloMosaic Idealize.ShloMosaic.ValueIdx

/-- One output entry of the layer from a row of the input, a row of the weight and a bias entry. -/
def entry {ι κ : Type} (x : ι → EReal) (w : κ → EReal) (xi : Fin 1024 → ι) (wi : Fin 1024 → κ) (bias : EReal) : EReal :=
  (∑ k : Fin 1024, x (xi k) * w (wi k)) + bias

/-- The layer on the [8192, 4, 1024] input: (s, n, o) ↦ Σₖ x[s, n, k] · w[o, k] + b[o]. -/
def full (x : (⟨3, ![8192, 4, 1024]⟩ : Shape).Idx → EReal) (w : (⟨2, ![4096, 1024]⟩ : Shape).Idx → EReal)
    (b : (⟨1, ![4096]⟩ : Shape).Idx → EReal) : (⟨3, ![8192, 4, 4096]⟩ : Shape).Idx → EReal :=
  fun i => entry x w (fun k => ix3 (n0 := 8192) (n1 := 4) (i 0) (i 1) k) (fun k => ix2 (n0 := 4096) (i 2) k) (b (ix1 (n := 4096) (i 2)))

/-- The layer on the flattened [32768, 1024] input with a [1, 4096] bias row: (r, o) ↦ Σₖ X[r, k] · w[o, k] + B[0, o]. -/
def flat (X : (⟨2, ![32768, 1024]⟩ : Shape).Idx → EReal) (w : (⟨2, ![4096, 1024]⟩ : Shape).Idx → EReal)
    (B : (⟨2, ![1, 4096]⟩ : Shape).Idx → EReal) : (⟨2, ![32768, 4096]⟩ : Shape).Idx → EReal :=
  fun i => entry X w (fun k => ix2 (n0 := 32768) (i 0) k) (fun k => ix2 (n0 := 4096) (i 1) k) (B (ix2 (0 : Fin 1) (n1 := 4096) (i 1)))

/-- The flattened input at row 4·s + n is the input at (s, n). -/
theorem reshape_in {α : Type} (x : (⟨3, ![8192, 4, 1024]⟩ : Shape).Idx → α)
    (h : (⟨3, ![8192, 4, 1024]⟩ : Shape).ShapeCasts ⟨2, ![32768, 1024]⟩) (s : Fin 8192) (n : Fin 4) (k : Fin 1024) :
    shapeCast ⟨2, ![32768, 1024]⟩ x h (ix2 (⟨s.val * 4 + n.val, by omega⟩ : Fin 32768) k) = x (ix3 s n k) := by
  refine shapeCast_apply x h _ (ix3 s n k) ?_
  rw [Shape.rowMajor_val_three, Shape.rowMajor_val_two]
  rfl

/-- The bias row at (0, o) is the bias at o. -/
theorem reshape_bias {α : Type} (b : (⟨1, ![4096]⟩ : Shape).Idx → α)
    (h : (⟨1, ![4096]⟩ : Shape).ShapeCasts ⟨2, ![1, 4096]⟩) (o : Fin 4096) :
    shapeCast ⟨2, ![1, 4096]⟩ b h (ix2 (0 : Fin 1) o) = b (ix1 o) := by
  refine shapeCast_apply b h _ (ix1 o) ?_
  rw [Shape.rowMajor_val_one, Shape.rowMajor_val_two]
  show o.val = 0 * 4096 + o.val
  omega

/-- The result reshaped to [8192, 4, 4096] at (s, n, o) is the flat result at row 4·s + n, column o. -/
theorem reshape_out {α : Type} (y : (⟨2, ![32768, 4096]⟩ : Shape).Idx → α)
    (h : (⟨2, ![32768, 4096]⟩ : Shape).ShapeCasts ⟨3, ![8192, 4, 4096]⟩) (s : Fin 8192) (n : Fin 4) (o : Fin 4096) :
    shapeCast ⟨3, ![8192, 4, 4096]⟩ y h (ix3 s n o) = y (ix2 (⟨s.val * 4 + n.val, by omega⟩ : Fin 32768) o) := by
  refine shapeCast_apply y h _ _ ?_
  rw [Shape.rowMajor_val_three, Shape.rowMajor_val_two]
  rfl

/-- RESHAPE, FLAT LAYER, RESHAPE BACK is the layer: the two programs' layouts compute one function. -/
theorem reshape_flat (x : (⟨3, ![8192, 4, 1024]⟩ : Shape).Idx → EReal) (w : (⟨2, ![4096, 1024]⟩ : Shape).Idx → EReal)
    (b : (⟨1, ![4096]⟩ : Shape).Idx → EReal)
    (hx : (⟨3, ![8192, 4, 1024]⟩ : Shape).ShapeCasts ⟨2, ![32768, 1024]⟩)
    (hb : (⟨1, ![4096]⟩ : Shape).ShapeCasts ⟨2, ![1, 4096]⟩)
    (ho : (⟨2, ![32768, 4096]⟩ : Shape).ShapeCasts ⟨3, ![8192, 4, 4096]⟩) :
    shapeCast ⟨3, ![8192, 4, 4096]⟩ (flat (shapeCast ⟨2, ![32768, 1024]⟩ x hx) w (shapeCast ⟨2, ![1, 4096]⟩ b hb)) ho
      = full x w b := by
  funext i
  obtain ⟨s, n, o, rfl⟩ : ∃ (s : Fin 8192) (n : Fin 4) (o : Fin 4096), i = ix3 s n o := ⟨i 0, i 1, i 2, eq_ix3 i⟩
  rw [reshape_out]
  show entry _ w (fun k => ix2 (⟨s.val * 4 + n.val, _⟩ : Fin 32768) k) (fun k => ix2 o k) _ = entry x w (fun k => ix3 s n k) (fun k => ix2 o k) (b (ix1 o))
  unfold entry
  refine congrArg₂ (· + ·) (Finset.sum_congr rfl fun k _ => ?_) (reshape_bias b hb o)
  rw [reshape_in]

end Cert.Linear

end
-- ==== Proof.KernelValue.lean ====
/-
  What the idealized kernel program leaves in its result, as the linear layer of its arguments.

  The grid has 4 × 32 points (j, i): point (j, i) takes rows 1024·i … 1024·i + 1023 of the flattened input, rows
  1024·j … 1024·j + 1023 of the weight and entries 1024·j … of the bias row, and writes block (i, j) of the
  [32768, 4096] output. The body's stored value at (p, q) is Σₖ a[p, k] · w[q, k] + b[0, q] (module Body), so what a
  point writes back is its block of `Linear.flat` of the three arrays the region finds (`flushed_eq`). The 32 × 4
  output blocks tile the output (`cover`: index (r, o) lies in the block of the point with i = r / 1024,
  j = o / 1024), so the array after the region IS `flat` of those arrays (`region_result`). The arrays the region
  finds are the reshaped input and bias (`entry_x`, `entry_b`), and the program's result is the region's output
  reshaped to [8192, 4, 4096] (`tail_result`); by `Linear.reshape_flat` that is `Linear.full` of the arguments (`run`).
-/
import proofs.«127856_j44856638439896_1_alg».proof.Proof.Gen.KernelIdeal.Frame
import proofs.«127856_j44856638439896_1_alg».proof.Proof.Body
import proofs.«127856_j44856638439896_1_alg».proof.Proof.Linear
import Idealize.ShloMosaic.Lib.Pipeline.Value
import Idealize.ShloMosaic.Lib.StableHlo.Run

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem offset_zero : (![0, 0] : Fin 2 → Nat) = fun _ => 0 := funext fun a => by fin_cases a <;> rfl

/-- The printed index maps over the 128 grid points: the input block moves with the output's block row, the weight
    and bias blocks with the output's block column, every other block coordinate is 0, and the output's block
    coordinates stay inside 32 × 4. -/
theorem idx_facts : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = 0
    ∧ win0_2.index t (1 : Fin 2) = win0_3.index t (1 : Fin 2)
    ∧ win0_3.index t (0 : Fin 2) ≤ 31 ∧ win0_3.index t (1 : Fin 2) ≤ 3 :=
  (by decide +kernel : ∀ t : Fin grid0.N, _)

/-- Every one of the 32 × 4 output blocks is some point's. -/
theorem idx_onto : ∀ (q0 : Fin 32) (q1 : Fin 4), ∃ t : Fin cfg0.N, win0_3.index t = ![q0.val, q1.val] :=
  (by decide +kernel : ∀ (q0 : Fin 32) (q1 : Fin 4), ∃ t : Fin grid0.N, win0_3.index t = ![q0.val, q1.val])

/-- The output row that row `p` of point `t`'s block is. -/
def row (t : Fin cfg0.N) (p : Fin 1024) : Fin 32768 :=
  ⟨win0_3.index t (0 : Fin 2) * 1024 + p.val, by have := (idx_facts t).2.2.2.2.2.2.1; have := p.isLt; omega⟩
/-- The output column that column `q` of point `t`'s block is. -/
def col (t : Fin cfg0.N) (q : Fin 1024) : Fin 4096 :=
  ⟨win0_3.index t (1 : Fin 2) * 1024 + q.val, by have := (idx_facts t).2.2.2.2.2.2.2; have := q.isLt; omega⟩

/-- Entry (p, q) of the output block sits at (row, col) of the output array. -/
theorem out_at (t : Fin cfg0.N) (p q : Fin 1024) :
    ((cfg0.win 3).blk t).view.emb (ix2 p q) = ix2 (row t p) (col t q) := by
  funext a; apply Fin.ext
  match a with
  | ⟨0, _⟩ => show win0_3.index t (0 : Fin 2) * 1024 + 1 * p.val = win0_3.index t (0 : Fin 2) * 1024 + p.val; omega
  | ⟨1, _⟩ => show win0_3.index t (1 : Fin 2) * 1024 + 1 * q.val = win0_3.index t (1 : Fin 2) * 1024 + q.val; omega

/-- Entry (p, k) of the input block is the flattened input at (row, k). -/
theorem in_at (c : Dev nD) (t : Fin cfg0.N) (p k : Fin 1024) :
    iblk m c 0 t (ix2 p k) = V m c main_v0 (ix2 (row t p) k) := by
  obtain ⟨e0, e1, -⟩ := idx_facts t
  show V m c main_v0 (((cfg0.win 0).blk t).view.emb (ix2 p k)) = V m c main_v0 (ix2 (row t p) k)
  refine congrArg (V m c main_v0) (funext fun a => Fin.ext ?_)
  match a with
  | ⟨0, _⟩ => show win0_0.index t (0 : Fin 2) * 1024 + 1 * p.val = win0_3.index t (0 : Fin 2) * 1024 + p.val; omega
  | ⟨1, _⟩ => show win0_0.index t (1 : Fin 2) * 1024 + 1 * k.val = k.val; omega

/-- Entry (q, k) of the weight block is the weight at (col, k). -/
theorem weight_at (c : Dev nD) (t : Fin cfg0.N) (q k : Fin 1024) :
    iblk m c 1 t (ix2 q k) = V m c main_arg1 (ix2 (col t q) k) := by
  obtain ⟨-, -, e2, e3, -⟩ := idx_facts t
  show V m c main_arg1 (((cfg0.win 1).blk t).view.emb (ix2 q k)) = V m c main_arg1 (ix2 (col t q) k)
  refine congrArg (V m c main_arg1) (funext fun a => Fin.ext ?_)
  match a with
  | ⟨0, _⟩ => show win0_1.index t (0 : Fin 2) * 1024 + 1 * q.val = win0_3.index t (1 : Fin 2) * 1024 + q.val; omega
  | ⟨1, _⟩ => show win0_1.index t (1 : Fin 2) * 1024 + 1 * k.val = k.val; omega

/-- Entry (0, q) of the bias block is the bias row at (0, col). -/
theorem bias_at (c : Dev nD) (t : Fin cfg0.N) (q : Fin 1024) :
    iblk m c 2 t (ix2 (0 : Fin 1) q) = V m c main_v1 (ix2 (0 : Fin 1) (col t q)) := by
  obtain ⟨-, -, -, -, e4, e5, -⟩ := idx_facts t
  show V m c main_v1 (((cfg0.win 2).blk t).view.emb (ix2 (0 : Fin 1) q)) = V m c main_v1 (ix2 (0 : Fin 1) (col t q))
  refine congrArg (V m c main_v1) (funext fun a => Fin.ext ?_)
  match a with
  | ⟨0, _⟩ => show win0_2.index t (0 : Fin 2) * 1 + 1 * 0 = 0; omega
  | ⟨1, _⟩ => show win0_2.index t (1 : Fin 2) * 1024 + 1 * q.val = win0_3.index t (1 : Fin 2) * 1024 + q.val; omega

/-- WHAT POINT `t` WRITES BACK is its block of the flat layer of the arrays the region finds. -/
theorem flushed_eq (c : Dev nD) (t : Fin cfg0.N) :
    (dats m 0 c).flushed 3 t
      = ((cfg0.win 3).blk t).view.read (Elt Ideal) (Cert.Linear.flat (V m c main_v0) (V m c main_arg1) (V m c main_v1)) := by
  show (cfg0.win 3).cut (grid0.coords t) ((dats m 0 c).after 3 t) = _
  rw [after0_3]
  unfold out0_3
  rw [View.canon_unit_zero offset_zero]
  simp only [View.ld_unit_zero (S := S1024x1024) offset_zero, View.ld_unit_zero (S := S1x1024) offset_zero]
  funext j
  obtain ⟨p, q, rfl⟩ : ∃ (p q : Fin 1024), j = ix2 p q := ⟨j 0, j 1, eq_ix2 j⟩
  show k0_pay1 (F := Ideal) (iblk m c 0 t) (iblk m c 1 t) (iblk m c 2 t) (ix2 p q)
    = Cert.Linear.flat (V m c main_v0) (V m c main_arg1) (V m c main_v1) (((cfg0.win 3).blk t).view.emb (ix2 p q))
  rw [out_at]
  refine (Cert.KernelIdeal.Body.pay_at (iblk m c 0 t) (iblk m c 1 t) (iblk m c 2 t) p q).trans ?_
  show _ = Cert.Linear.entry (V m c main_v0) (V m c main_arg1) (fun k => ix2 (row t p) k) (fun k => ix2 (col t q) k)
    (V m c main_v1 (ix2 (0 : Fin 1) (col t q)))
  unfold Cert.Linear.entry
  refine congrArg₂ (· + ·) (Finset.sum_congr rfl fun k _ => ?_) (bias_at m c t q)
  rw [in_at, weight_at]

/-- An index of the output is in point `t`'s block iff each coordinate is in the block's range on its axis. -/
theorem mem_blk (t : Fin cfg0.N) (i : S32768x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v2).slice (win0_3.rect t)).set ↔ _
  rw [View.set_slice_whole, Rect.mem_set_unit]
  exact Iff.rfl

/-- The output blocks tile the output: (r, o) is in the block of the point with block row r / 1024 and block column o / 1024. -/
theorem cover (i : S32768x4096.Idx) : ∃ t : Fin cfg0.N, (cfg0.win 3).flush t = true ∧ i ∈ ((cfg0.win 3).blk t).view.set := by
  have hi0 : (i 0).val < 32768 := (i 0).isLt
  have hi1 : (i 1).val < 4096 := (i 1).isLt
  obtain ⟨t, ht⟩ := idx_onto ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- THE REGION'S OUTPUT after the run is the flat layer of the arrays the region finds. -/
theorem region_result (c : Dev nD) :
    (dats m 0 c).arrAt 3 cfg0.N = Cert.Linear.flat (V m c main_v0) (V m c main_arg1) (V m c main_v1) :=
  (dats m 0 c).arrAt_eq_of_cover 3 _ (fun t _ => flushed_eq m c t) cover

/-- The region finds the input reshaped to [32768, 1024]. -/
theorem entry_x (c : Dev nD) :
    (V m c main_v0 : S32768x1024.Idx → EReal)
      = shapeCast S32768x1024 (m ((c : Thread nD τ).loc main_arg0)) shapeCasts_S8192x4x1024_S32768x1024 := by
  show StableHlo.after hostOps0 (fun b => m (c, b)) (Proc.devRef .tc main_v0) = _
  after_results
  rfl

/-- The region finds the bias reshaped to one row. -/
theorem entry_b (c : Dev nD) :
    (V m c main_v1 : S1x4096.Idx → EReal)
      = shapeCast S1x4096 (m ((c : Thread nD τ).loc main_arg2)) shapeCasts_S4096_S1x4096 := by
  show StableHlo.after hostOps0 (fun b => m (c, b)) (Proc.devRef .tc main_v1) = _
  after_results
  rfl

/-- The program's result is the region's output reshaped to [8192, 4, 4096]: the layer of the arguments. -/
theorem tail_result (c : Dev nD) :
    Pipeline.afterTail₀ cfgs (dats m) 0 (V0 m) [hostOps1] c main_v3
      = Cert.Linear.full (m ((c : Thread nD τ).loc main_arg0)) (m ((c : Thread nD τ).loc main_arg1)) (m ((c : Thread nD τ).loc main_arg2)) := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2)
      = Cert.Linear.flat (V m c main_v0) (V m c main_arg1) (V m c main_v1) :=
    (Pipeline.withArrays_arr spec0 launch0.win.arr_inj c _ _ 3).trans (region_result m c)
  show shapeCast S8192x4x4096 (Pipeline.withArrays (cfgs 0).spec c (V0 m c) (fun w => (dats m 0 c).arrAt w (cfgs 0).N)
      (Proc.devRef .tc main_v2)) shapeCasts_S32768x4096_S8192x4x4096 = _
  rw [hw, entry_x, entry_b, V_main_arg1]
  exact Cert.Linear.reshape_flat _ _ _ _ _ _

/-- THE RUN of the idealized kernel program: every weakly fair execution terminates with the result at the linear
    layer of the arguments and the arguments unchanged. -/
theorem run : θ_run defs (onTc (τ := τ) (main (F := Ideal))) ⟨m, fun _ => 0, ρ⟩ fun r => ∀ c : Dev nD,
      r.2.mem ((c.tc : Thread nD τ).loc main_v3)
        = Cert.Linear.full (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v3 (Pipeline.mem_restRefs_of main_v3 (by decide) (by decide))).trans (tail_result m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c))),
       ((h c).2 main_arg2 (Pipeline.mem_restRefs_of main_arg2 (by decide) (by decide))).trans (W_main_arg2 m (dats m) c)⟩)
    (run_main m ρ)

end Cert.KernelIdeal.KernelValue

end
-- ==== Proof.RefValue.lean ====
/-
  The reference program's result is the linear layer `Linear.full` of its three arguments.
  Its four host operations are a product contracting the feature axis of the input with the feature axis of the
  weight, two broadcasts of the bias along the leading axes, and a sum: at (s, n, o) that is
  Σₖ x[s, n, k] · w[o, k] + b[o], which is `full` read at that index, coordinate by coordinate.
-/
import proofs.«127856_j44856638439896_1_alg».proof.Proof.Gen.ReferenceIdeal.Run
import proofs.«127856_j44856638439896_1_alg».proof.Proof.Gen.ReferenceIdeal.Read
import proofs.«127856_j44856638439896_1_alg».proof.Proof.Linear

noncomputable section

namespace Cert.ReferenceIdeal.RefValue

open Cert.ReferenceIdeal Cert.ReferenceIdeal.Gen Cert.ReferenceIdeal.Read Idealize.ShloMosaic Idealize.ShloMosaic.ValueIdx

/-- The reference's last stage, index by index, is the layer. -/
theorem result_eq_full (x : (⟨S8192x4x1024, .f32⟩ : BufTy).Contents (Elt Ideal)) (w : (⟨S4096x1024, .f32⟩ : BufTy).Contents (Elt Ideal))
    (b : (⟨S4096, .f32⟩ : BufTy).Contents (Elt Ideal)) :
    val_main_v3 (F := Ideal) x w b = Cert.Linear.full x w b := by
  funext i
  rw [val_main_v3_apply, val_main_v0_apply, val_main_v2_apply, val_main_v1_apply]
  have el : ∀ k : Fin 1024, lidx_main_v0 i k = ix3 (n0 := 8192) (n1 := 4) (i 0) (i 1) k := fun k => funext fun a => by
    match a with | ⟨0, _⟩ => rfl | ⟨1, _⟩ => rfl | ⟨2, _⟩ => rfl
  have er : ∀ k : Fin 1024, ridx_main_v0 i k = ix2 (n0 := 4096) (i 2) k := fun k => funext fun a => by
    match a with | ⟨0, _⟩ => rfl | ⟨1, _⟩ => rfl
  have eb : idx_main_v1 (idx_main_v2 i) = ix1 (n := 4096) (i 2) := funext fun a => by
    match a with | ⟨0, _⟩ => rfl
  simp only [el, er, eb]
  rfl

end Cert.ReferenceIdeal.RefValue

end
-- ==== Proof.lean ====
/-
  A linear layer Y = X · Wᵀ + b on a [8192, 4, 1024] input with a [4096, 1024] weight and a [4096] bias, computed by
  a tiled kernel against a plain einsum-plus-bias reference, equal over the extended reals.

  The kernel program merges the input's two leading axes into 32768 rows, turns the bias into one row, runs a
  4 × 32 grid whose point (j, i) multiplies a 1024-row block of the input with the transpose of a 1024-row block of
  the weight over all 1024 features, adds the bias entries of those output features and writes block (i, j) of the
  [32768, 4096] output, then splits the rows back into [8192, 4]. The reference contracts the feature axis of the
  input with the feature axis of the weight and adds the broadcast bias.

  Over the extended reals the change of float format in front of the kernel's product is the identity and both
  products are plain sums over the feature index, so both programs end with entry (s, n, o) equal to
  Σₖ x[s, n, k] · w[o, k] + b[o]: the same 1024 terms in the same order, plus the same bias entry. Row-major order
  sends (s, n) to row 4·s + n, which is all the reshapes do. No law of the extended reals beyond reading both sides at
  an index is used, so finiteness of the inputs is never needed.

  Modules: Linear (the layer as one function in both layouts, and that the reshapes join them), Body (the kernel
  body's stored value at an index), KernelValue (the kernel program's result: blocks, tiling, host lines around the
  region), RefValue (the reference's result). The three frames are the generated ones; the idealization rewrote nothing.
-/
import proofs.«127856_j44856638439896_1_alg».proof.Defs
import proofs.«127856_j44856638439896_1_alg».proof.Proof.Gen.Kernel
import proofs.«127856_j44856638439896_1_alg».proof.Proof.Gen.Kernel.Skeleton
import proofs.«127856_j44856638439896_1_alg».proof.Proof.Gen.Kernel.Launch
import proofs.«127856_j44856638439896_1_alg».proof.Proof.Gen.Kernel.Points
import proofs.«127856_j44856638439896_1_alg».proof.Proof.Gen.Kernel.Frame
import proofs.«127856_j44856638439896_1_alg».proof.Proof.Gen.KernelIdeal
import proofs.«127856_j44856638439896_1_alg».proof.Proof.Gen.KernelIdeal.Skeleton
import proofs.«127856_j44856638439896_1_alg».proof.Proof.Gen.KernelIdeal.Launch
import proofs.«127856_j44856638439896_1_alg».proof.Proof.Gen.KernelIdeal.Points
import proofs.«127856_j44856638439896_1_alg».proof.Proof.Gen.KernelIdeal.Frame
import proofs.«127856_j44856638439896_1_alg».proof.Proof.Gen.ReferenceIdeal
import proofs.«127856_j44856638439896_1_alg».proof.Proof.Gen.ReferenceIdeal.Run
import proofs.«127856_j44856638439896_1_alg».proof.Proof.Gen.ReferenceIdeal.Read
import proofs.«127856_j44856638439896_1_alg».proof.Proof.Gen.Pre_finite_inputs
import proofs.«127856_j44856638439896_1_alg».proof.Proof.KernelValue
import proofs.«127856_j44856638439896_1_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the linear layer of their arguments, which agree: entry (s, n, o) of either
    result is Σₖ x[s, n, k] · w[o, k] + b[o]. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.result_eq_full,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
